-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32 : Shape := ⟨3, ![4, 1024, 32]⟩
abbrev S4x1024x64 : Shape := ⟨3, ![4, 1024, 64]⟩
abbrev S32x32 : Shape := ⟨2, ![32, 32]⟩
abbrev S32 : Shape := ⟨1, ![32]⟩
abbrev S_ : Shape := ⟨0, ![]⟩

class Facts : Prop where
  bcast_S_S4x1024x32 : S_.BroadcastsInDim S4x1024x32 (![] : Fin 0 → Fin S4x1024x32.rank)
  reducesTo_S4x1024x32_S_d0_1_2 : S4x1024x32.ReducesTo [0, 1, 2] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4x1024x32 .f32) (main_arg1 : FVec F S4x1024x32 .f32) (main_arg2 : FVec F S4x1024x64 .f32) (main_arg3 : FVec F S32x32 .f32) (main_arg4 : FVec F S32 .f32) : IVec S_ 1 :=
  let main_v0 : FVec F S4x1024x32 .f32 := Host.absf main_arg0
  let main_cst : FVec F S_ .f32 := constant S_ .f32 0x7F800000#32
  let main_v1 : FVec F S4x1024x32 .f32 := broadcastInDim S4x1024x32 ![] bcast_S_S4x1024x32 main_cst
  let main_v2 : IVec S4x1024x32 1 := cmpf .olt main_v0 main_v1
  let main_c : IVec S_ 1 := constantI S_ 1 1#1
  let main_v3 : IVec S_ 1 := (fun x v => Host.reduce IntOp.andi x v reducesTo_S4x1024x32_S_d0_1_2 h_S_) main_v2 main_c
  let main_v4 : FVec F S4x1024x32 .f32 := Host.absf main_arg1
  let main_cst_0 : FVec F S_ .f32 := constant S_ .f32 0x7F800000#32
  let main_v5 : FVec F S4x1024x32 .f32 := broadcastInDim S4x1024x32 ![] bcast_S_S4x1024x32 main_cst_0
  let main_v6 : IVec S4x1024x32 1 := cmpf .olt main_v4 main_v5
  let main_c_1 : IVec S_ 1 := constantI S_ 1 1#1
  let main_v7 : IVec S_ 1 := (fun x v => Host.reduce IntOp.andi x v reducesTo_S4x1024x32_S_d0_1_2 h_S_) main_v6 main_c_1
  let main_v8 : IVec S_ 1 := andi main_v3 main_v7
  let main_v9 : FVec F S4x1024x64 .f32 := Host.absf main_arg2
  let main_cst_2 : FVec F S_ .f32 := constant S_ .f32 0x7F800000#32
  let main_v10 : FVec F S4x1024x64 .f32 := broadcastInDim S4x1024x64 ![] bcast_S_S4x1024x64 main_cst_2
  let main_v11 : IVec S4x1024x64 1 := cmpf .olt main_v9 main_v10
  let main_c_3 : IVec S_ 1 := constantI S_ 1 1#1
  let main_v12 : IVec S_ 1 := (fun x v => Host.reduce IntOp.andi x v reducesTo_S4x1024x64_S_d0_1_2 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S4x1024x32 : Shape := ⟨3, ![4, 1024, 32]⟩
abbrev S4x1024x64 : Shape := ⟨3, ![4, 1024, 64]⟩
abbrev S32x32 : Shape := ⟨2, ![32, 32]⟩
abbrev S32 : Shape := ⟨1, ![32]⟩
abbrev S1x32 : Shape := ⟨2, ![1, 32]⟩
abbrev S1x1024x32 : Shape := ⟨3, ![1, 1024, 32]⟩
abbrev S1x128x32 : Shape := ⟨3, ![1, 128, 32]⟩
abbrev S1x1024x64 : Shape := ⟨3, ![1, 1024, 64]⟩
abbrev S1x128x64 : Shape := ⟨3, ![1, 128, 64]⟩
abbrev S1024x32 : Shape := ⟨2, ![1024, 32]⟩
abbrev S128x32 : Shape := ⟨2, ![128, 32]⟩
abbrev S1024x64 : Shape := ⟨2, ![1024, 64]⟩
abbrev S128x1024 : Shape := ⟨2, ![128, 1024]⟩
abbrev S1024x1 : Shape := ⟨2, ![1024, 1]⟩
abbrev S1024 : Shape := ⟨1, ![1024]⟩
abbrev S128x1 : Shape := ⟨2, ![128, 1]⟩
abbrev S128 : Shape := ⟨1, ![128]⟩
abbrev S1x1024 : Shape := ⟨2, ![1, 1024]⟩
abbrev S128x64 : Shape := ⟨2, ![128, 64]⟩

abbrev nBuf : Space → Nat
  | .hbm => 7
  | .vmem => 10
  | .smem => 0
  | _ => 0

abbrev bufTy : (tb : Table) → Fin (tcTables nBuf tb) → BufTy
  | .hbm, ⟨0, _⟩ => ⟨S4x1024x32, .f32⟩
  | .hbm, ⟨1, _⟩ => ⟨S4x1024x32, .f32⟩
  | .hbm, ⟨2, _⟩ => ⟨S4x1024x64, .f32⟩
  | .hbm, ⟨3, _⟩ => ⟨S32x32, .f32⟩
  | .hbm, ⟨4, _⟩ => ⟨S32, .f32⟩
  | .hbm, ⟨5, _⟩ => ⟨S1x32, .f32⟩
  | .hbm, ⟨6, _⟩ => ⟨S4x1024x64, .f32⟩
  | .local _ .vmem, ⟨0, _⟩ => ⟨S1x1024x32, .f32⟩
  | .local _ .vmem, ⟨1, _⟩ => ⟨S1x1024x32, .f32⟩
  | .local _ .vmem, ⟨2, _⟩ => ⟨S1x128x32, .f32⟩
  | .local _ .vmem, ⟨3, _⟩ => ⟨S1x128x32, .f32⟩
  | .local _ .vmem, ⟨4, _⟩ => ⟨S1x1024x64, .f32⟩
  | .local _ .vmem, ⟨5, _⟩ => ⟨S1x1024x64, .f32⟩
  | .local _ .vmem, ⟨6, _⟩ => ⟨S32x32, .f32⟩
  | .local _ .vmem, ⟨7, _⟩ => ⟨S1x32, .f32⟩
  | .local _ .vmem, ⟨8, _⟩ => ⟨S1x128x64, .f32⟩
  | .local _ .vmem, ⟨9, _⟩ => ⟨S1x128x64, .f32⟩
  | _, _ => ⟨S4x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32_S1x32 : S32.ShapeCasts S1x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S32 : S1x32.ShapeCasts S32
  bitsLt_bf16_f32 : FTy.bits .bf16 < FTy.bits .f32
  transposes_S32x32_p1_0_S32x32 : S32x32.Transposes [1, 0] S32x32
  broadcasts_S1x32_S1024x32 : S1x32.Broadcasts S1024x32
  broadcasts_S1x32_S128x32 : S1x32.Broadcasts S128x32
  slices_S1024x32_o0_0_S1024x1 : S1024x32.Slices ![0, 0] S1024x1
  shapeCasts_S1024x1_S1024 : S1024x1.ShapeCasts S1024
  slices_S128x32_o0_0_S128x1 : S128x32.Slices ![0, 0] S128x1
  shapeCasts_S128x1_S128 : S128x1.ShapeCasts S128
  shapeCasts_S1024_S1x1024 : S1024.ShapeCasts S1x1024
  shapeCasts_S128_S128x1 : S128.ShapeCasts S128x1
  broadcasts_S1x1024_S128x1024 : S1x1024.Broadcasts S128x1024
  broadcasts_S128x1_S128x1024 : S128x1.Broadcasts S128x1024
  slices_S1024x32_o0_1_S1024x1 : S1024x32.Slices ![0, 1] S1024x1
  slices_S128x32_o0_1_S128x1 : S128x32.Slices ![0, 1] S128x1
  slices_S1024x32_o0_2_S1024x1 : S1024x32.Slices ![0, 2] S1024x1
  slices_S128x32_o0_2_S128x1 : S128x32.Slices ![0, 2] S128x1
  slices_S1024x32_o0_3_S1024x1 : S1024x32.Slices ![0, 3] S1024x1
  slices_S128x32_o0_3_S128x1 : S128x32.Slices ![0, 3] S128x1
  slices_S1024x32_o0_4_S1024x1 : S1024x32.Slices ![0, 4] S1024x1
  slices_S128x32_o0_4_S128x1 : S128x32.Slices ![0, 4] S128x1
  slices_S1024x32_o0_5_S1024x1 : S1024x32.Slices ![0, 5] S1024x1
  slices_S128x32_o0_5_S128x1 : S128x32.Slices ![0, 5] S128x1
  slices_S1024x32_o0_6_S1024x1 : S1024x32.Slices ![0, 6] S1024x1
  slices_S128x32_o0_6_S128x1 : S128x32.Slices ![0, 6] S128x1
  slices_S1024x32_o0_7_S1024x1 : S1024x32.Slices ![0, 7] S1024x1
  slices_S128x32_o0_7_S128x1 : S128x32.Slices ![0, 7] S128x1
  slices_S1024x32_o0_8_S1024x1 : S1024x32.Slices ![0, 8] S1024x1
  slices_S128x32_o0_8_S128x1 : S128x32.Slices ![0, 8] S128x1
  slices_S1024x32_o0_9_S1024x1 : S1024x32.Slices ![0, 9] S1024x1
  slices_S128x32_o0_9_S128x1 : S128x32.Slices ![0, 9] S128x1
  slices_S1024x32_o0_10_S1024x1 : S1024x32.Slices ![0, 10] S1024x1
  slices_S128x32_o0_10_S128x1 : S128x32.Slices ![0, 10] S128x1
  slices_S1024x32_o0_11_S1024x1 : S1024x32.Slices ![0, 11] S1024x1
  slices_S128x32_o0_11_S128x1 : S128x32.Slices ![0, 11] S128x1
  slices_S1024x32_o0_12_S1024x1 : S1024x32.Slices ![0, 12] S1024x1
  slices_S128x32_o0_12_S128x1 : S128x32.Slices ![0, 12] S128x1
  slices_S1024x32_o0_13_S1024x1 : S1024x32.Slices ![0, 13] S1024x1
  slices_S128x32_o0_13_S128x1 : S128x32.Slices ![0, 13] S128x1
  slices_S1024x32_o0_14_S1024x1 : S1024x32.Slices ![0, 14] S1024x1
  slices_S128x32_o0_14_S128x1 : S128x32.Slices ![0, 14] S128x1
  slices_S1024x32_o0_15_S1024x1 : S1024x32.Slices ![0, 15] S1024x1
  slices_S128x32_o0_15_S128x1 : S128x32.Slices ![0, 15] S128x1
  slices_S1024x32_o0_16_S1024x1 : S1024x32.Slices ![0, 16] S1024x1
  slices_S128x32_o0_16_S128x1 : S128x32.Slices ![0, 16] S128x1
  slices_S1024x32_o0_17_S1024x1 : S1024x32.Slices ![0, 17] S1024x1
  slices_S128x32_o0_17_S128x1 : S128x32.Slices ![0, 17] S128x1
  slices_S1024x32_o0_18_S1024x1 : S1024x32.Slices ![0, 18] S1024x1
  slices_S128x32_o0_18_S128x1 : S128x32.Slices ![0, 18] S128x1
  slices_S1024x32_o0_19_S1024x1 : S1024x32.Slices ![0, 19] S1024x1
  slices_S128x32_o0_19_S128x1 : S128x32.Slices ![0, 19] S128x1
  slices_S1024x32_o0_20_S1024x1 : S1024x32.Slices ![0, 20] S1024x1
  slices_S128x32_o0_20_S128x1 : S128x32.Slices ![0, 20] S128x1
  slices_S1024x32_o0_21_S1024x1 : S1024x32.Slices ![0, 21] S1024x1
  slices_S128x32_o0_21_S128x1 : S128x32.Slices ![0, 21] S128x1
  slices_S1024x32_o0_22_S1024x1 : S1024x32.Slices ![0, 22] S1024x1
  slices_S128x32_o0_22_S128x1 : S128x32.Slices ![0, 22] S128x1
  slices_S1024x32_o0_23_S1024x1 : S1024x32.Slices ![0, 23] S1024x1
  slices_S128x32_o0_23_S128x1 : S128x32.Slices ![0, 23] S128x1
  slices_S1024x32_o0_24_S1024x1 : S1024x32.Slices ![0, 24] S1024x1
  slices_S128x32_o0_24_S128x1 : S128x32.Slices ![0, 24] S128x1
  slices_S1024x32_o0_25_S1024x1 : S1024x32.Slices ![0, 25] S1024x1
  slices_S128x32_o0_25_S128x1 : S128x32.Slices ![0, 25] S128x1
  slices_S1024x32_o0_26_S1024x1 : S1024x32.Slices ![0, 26] S1024x1
  slices_S128x32_o0_26_S128x1 : S128x32.Slices ![0, 26] S128x1
  slices_S1024x32_o0_27_S1024x1 : S1024x32.Slices ![0, 27] S1024x1
  slices_S128x32_o0_27_S128x1 : S128x32.Slices ![0, 27] S128x1
  slices_S1024x32_o0_28_S1024x1 : S1024x32.Slices ![0, 28] S1024x1
  slices_S128x32_o0_28_S128x1 : S128x32.Slices ![0, 28] S128x1
  slices_S1024x32_o0_29_S1024x1 : S1024x32.Slices ![0, 29] S1024x1
  slices_S128x32_o0_29_S128x1 : S128x32.Slices ![0, 29] S128x1
  slices_S1024x32_o0_30_S1024x1 : S1024x32.Slices ![0, 30] S1024x1
  slices_S128x32_o0_30_S128x1 : S128x32.Slices ![0, 30] S128x1
  slices_S1024x32_o0_31_S1024x1 : S1024x32.Slices ![0, 31] S1024x1
  slices_S128x32_o0_31_S128x1 : S128x32.Slices ![0, 31] S128x1
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  dot_S1024x32_S32x32_S1024x32_1_0_0_1_n_n_wf : DotDims.WF S1024x32 S32x32 S1024x32 [1] [0] [0] [1] [] []
  dot_S128x32_S32x32_S128x32_1_0_0_1_n_n_wf : DotDims.WF S128x32 S32x32 S128x32 [1] [0] [0] [1] [] []
  dot_S128x1024_S1024x64_S128x64_1_0_0_1_n_n_wf : DotDims.WF S128x1024 S1024x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x32.size a ≤ S4x1024x32.size a
  hwx0_0 : ∀ i : grid0.Coords, EltTy.bits .f32 = 32 ∨ (Rect.block (s := S4x1024x32) S1x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32.size a ≤ S4x1024x32.size a
  hwx0_1 : ∀ i : grid0.Coords, EltTy.bits .f32 = 32 ∨ (Rect.block (s := S4x1024x32) S1x128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x1024x64.size a
  hwx0_2 : ∀ i : grid0.Coords, EltTy.bits .f32 = 32 ∨ (Rect.block (s := S4x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x64.size a ≤ S4x1024x64.size a
  hwx0_5 : ∀ i : grid0.Coords, EltTy.bits .f32 = 32 ∨ (Rect.block (s := S4x1024x64) S1x128x64.size (cc0_transform_5 i) (hinb0_5 i)).WholeWords (EltTy.packing .f32)

variable [Facts₀]

def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf

abbrev win0_0 : Pipeline.Window sig grid0 :=
  Pipeline.Window.ofSpec (Memref.whole main_arg0) S1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x1024x32 : Shape := ⟨3, ![4, 1024, 32]⟩
abbrev S4x1024x64 : Shape := ⟨3, ![4, 1024, 64]⟩
abbrev S32x32 : Shape := ⟨2, ![32, 32]⟩
abbrev S32 : Shape := ⟨1, ![32]⟩
abbrev S1x1x32 : Shape := ⟨3, ![1, 1, 32]⟩
abbrev S4x1x1024x32 : Shape := ⟨4, ![4, 1, 1024, 32]⟩
abbrev S4x1024x1x32 : Shape := ⟨4, ![4, 1024, 1, 32]⟩
abbrev S4x1024x1024x32 : Shape := ⟨4, ![4, 1024, 1024, 32]⟩
abbrev S_ : Shape := ⟨0, ![]⟩
abbrev S4x1024x1024 : Shape := ⟨3, ![4, 1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x32, .f32⟩
  | .hbm, ⟨1, _⟩ => ⟨S4x1024x32, .f32⟩
  | .hbm, ⟨2, _⟩ => ⟨S4x1024x64, .f32⟩
  | .hbm, ⟨3, _⟩ => ⟨S32x32, .f32⟩
  | .hbm, ⟨4, _⟩ => ⟨S32, .f32⟩
  | .hbm, ⟨5, _⟩ => ⟨S4x1024x32, .f32⟩
  | .hbm, ⟨6, _⟩ => ⟨S1x1x32, .f32⟩
  | .hbm, ⟨7, _⟩ => ⟨S4x1024x32, .f32⟩
  | .hbm, ⟨8, _⟩ => ⟨S4x1024x32, .f32⟩
  | .hbm, ⟨9, _⟩ => ⟨S4x1024x32, .f32⟩
  | .hbm, ⟨10, _⟩ => ⟨S1x1x32, .f32⟩
  | .hbm, ⟨11, _⟩ => ⟨S4x1024x32, .f32⟩
  | .hbm, ⟨12, _⟩ => ⟨S4x1024x32, .f32⟩
  | .hbm, ⟨13, _⟩ => ⟨S4x1x1024x32, .f32⟩
  | .hbm, ⟨14, _⟩ => ⟨S4x1024x1x32, .f32⟩
  | .hbm, ⟨15, _⟩ => ⟨S4x1024x1024x32, .f32⟩
  | .hbm, ⟨16, _⟩ => ⟨S4x1024x1024x32, .f32⟩
  | .hbm, ⟨17, _⟩ => ⟨S4x1024x1024x32, .f32⟩
  | .hbm, ⟨18, _⟩ => ⟨S_, .f32⟩
  | .hbm, ⟨19, _⟩ => ⟨S4x1024x1024x32, .f32⟩
  | .hbm, ⟨20, _⟩ => ⟨S4x1024x1024x32, .f32⟩
  | .hbm, ⟨21, _⟩ => ⟨S4x1024x1024x32, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x64, .f32⟩
  | _, _ => ⟨S4x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S4x1024x32_0_1_2 : S1x1x32.BroadcastsInDim S4x1024x32 (![0, 1, 2] : Fin 3 → Fin S4x1024x32.rank)
  bcast_S4x1024x32_S4x1x1024x32_0_2_3 : S4x1024x32.BroadcastsInDim S4x1x1024x32 (![0, 2, 3] : Fin 3 → Fin S4x1x1024x32.rank)
  bcast_S4x1024x32_S4x1024x1x32_0_1_3 : S4x1024x32.BroadcastsInDim S4x1024x1x32 (![0, 1, 3] : Fin 3 → Fin S4x1024x1x32.rank)
  bcast_S4x1x1024x32_S4x1024x1024x32_0_1_2_3 : S4x1x1024x32.BroadcastsInDim S4x1024x1024x32 (![0, 1, 2, 3] : Fin 4 → Fin S4x1024x1024x32.rank)
  bcast_S4x1024x1x32_S4x1024x1024x32_0_1_2_3 : S4x1024x1x32.BroadcastsInDim S4x1024x1024x32 (![0, 1, 2, 3] : Fin 4 → Fin S4x1024x1024x32.rank)
  bcast_S_S4x1024x1024x32 : S_.BroadcastsInDim S4x1024x1024x32 (![] : Fin 0 → Fin S4x1024x1024x32.rank)
  reducesTo_S4x1024x1024x32_S4x1024x1024_d3 : S4x1024x1024x32.ReducesTo [3] S4x1024x1024
  h_S_ : 0 < S_.numel
  bcast_S_S4x1024x1024 : S_.BroadcastsInDim S4x1024x1024 (![] : Fin 0 → Fin S4x1024x1024.rank)
  dot_S4x1024x32_S32x32_S4x1024x32_2_1_01_0_n_n_wf : DotDims.WF S4x1024x32 S32x32 S4x1024x32 [2] [1] [0, 1] [0] [] []
  dot_S4x1024x1024_S4x1024x64_S4x1024x64_2_1_1_2_0_0_wf : DotDims.WF S4x1024x1024 S4x1024x64 S4x1024x64 [2] [1] [1] [2] [0] [0]

variable [Facts₀]

def dot_S4x1024x32_S32x32_S4x1024x32_2_1_01_0_n_n : DotDims S4x1024x32 S32x32 S4x1024x32 where
  lhsContracting := [2]
  rhsContracting := [1]
  lhsNonContracting := [0, 1]
  rhsNonContracting := [0]
  lhsBatch := []
  rhsBatch := []
  wf := dot_S4x1024x32_S32x32_S4x1024x32_2_1_01_0_n_n_wf
def dot_S4x1024x1024_S4x1024x64_S4x1024x64_2_1_1_2_0_0 : DotDims S4x1024x1024 S4x1024x64 S4x1024x64 where
  lhsContracting := [2]
  rhsContracting := [1]
  lhsNonContracting := [1]
  rhsNonContracting := [2]
  lhsBatch := [0]
  rhsBatch := [0]
  wf := dot_S4x1024x1024_S4x1024x64_S4x1024x64_2_1_1_2_0_0_wf

class Facts : Prop extends Facts₀ where

variable [Facts]
-- ==== Proof.LibColumn.lean ====
/-
  Column reads. A matrix `K` of shape [a, 32] enters the pairwise-distance loop one COLUMN at a time: the kernel slices
  column `h` out as an [a, 1] array, flattens it to a vector [a], and lays it either along the rows of a [b, a] matrix
  (every row the column) or down the columns of an [a, b] matrix (every column the column). This module reads each of
  those layout steps at an entry, so that the whole chain, at entry (p, n), is the entry `K (n, h)` resp. `K (p, h)`.
  The column number is a natural number in the printed offsets; it is read modulo 32 so that the entry is a total
  function of it (a slice that fits has `h < 32`, where `h % 32 = h`).
-/
import Idealize.ShloMosaic.Lib.Pipeline.Value
import Idealize.ShloMosaic.Lib.ValueIdx
import Idealize.ShloMosaic.Lib.ValueLayout

namespace Cert.Laplace

open Idealize.ShloMosaic Idealize.ShloMosaic.ValueIdx

variable {α : Type}

/-- A column [a, 1] flattened to a vector [a] reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] stood up as a column [a, 1] reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] repeated across `b` columns reads, at `(p, c)`, the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-column slice that fits inside 32 columns starts below 32. -/
theorem col_lt {a h : ℕ} (hs : (⟨2, ![a, 32]⟩ : Shape).Slices ![0, h] ⟨2, ![a, 1]⟩) : h < 32 := by
  have h1 : h + 1 ≤ 32 := hs.2 1
  omega

/-- Column `h` of a matrix with 32 columns, sliced out as [a, 1], reads at `(n, u)` the matrix's entry `(n, h)`. -/
theorem slice_col_apply {a : ℕ} (h : ℕ) (K : (⟨2, ![a, 32]⟩ : Shape).Idx → α)
    (hs : (⟨2, ![a, 32]⟩ : Shape).Slices ![0, h] ⟨2, ![a, 1]⟩) (n : Fin a) (u : Fin 1) :
    extractStridedSlice ⟨2, ![a, 1]⟩ ![0, h] K hs (ix2 n u) = K (ix2 n ⟨h % 32, Nat.mod_lt _ (by decide)⟩) :=
  slice2_axis1_apply h K hs n u _ (by
    have := col_lt hs
    show h % 32 = h + u.val
    omega)

end Cert.Laplace
-- ==== Proof.Spec.lean ====
/-
  The function both programs compute, over the extended reals.

  Inputs: context points x1 [4, 1024, 32], target points x2 [4, 1024, 32], context values r [4, 1024, 64], a shared
  linear map W [32, 32] with bias [32]. Keys and queries are the same affine image of x1 and x2:
      key  (b, n, h) = Σ_d x1 (b, n, d) · W (h, d) + bias h,        query (b, m, h) = Σ_d x2 (b, m, d) · W (h, d) + bias h.
  The attention weight of context point n for target point m is one plus the hyperbolic tangent of minus their L1
  distance over the 32 features, and the result is the weighted sum of the context values:
      out (b, m, v) = Σ_n (1 + tanh (−Σ_h |key (b, n, h) − query (b, m, h)|)) · r (b, n, v).
  Nothing below needs the inputs finite: the two programs differ only in the order in which the 32 distances are
  added, in spelling `−x` as `0 − x`, and in a division by the constant one, and all of those agree on every
  extended real.
-/
import Idealize.ShloMosaic.PureOps.Ideal
import Idealize.ShloMosaic.PureOps.Ideal.Laws
import Idealize.ShloMosaic.Lib.ValueIdx

noncomputable section

namespace Cert.Laplace

open Idealize.ShloMosaic Idealize.ShloMosaic.ValueIdx

/-! ## Two constants and the division by one -/

/-- The word of `1.0` denotes the extended real one. -/
theorem ofBits_one : Ideal.ofBits .f32 0x3F800000#32 = 1 := by
  simp [Ideal.ofBits, Ideal.ieee, -EReal.coe_mul]; norm_num

/-- Dividing by one changes no extended real. -/
theorem div_one (x : EReal) : Ideal.div x 1 = x := by
  have h := Ideal.div_coe (y := 1) one_ne_zero x
  simpa using h

/-! ## The specification -/

/-- The absolute difference of two extended reals, as both programs spell an absolute value: the larger of a number and its
    negation. -/
def adiff (x y : EReal) : EReal := max (x - y) (-(x - y))

/-- The L1 distance of two feature vectors. -/
def dist (k q : Fin 32 → EReal) : EReal := ∑ h : Fin 32, adiff (k h) (q h)

/-- The attention weight of a key for a query. -/
def wt (k q : Fin 32 → EReal) : EReal := 1 + Ideal.tanh (-(dist k q))

/-- The affine image of row `n` of batch `b` of `x`, feature `h`. -/
def proj (x : (⟨3, ![4, 1024, 32]⟩ : Shape).Idx → EReal) (W : (⟨2, ![32, 32]⟩ : Shape).Idx → EReal)
    (bias : (⟨1, ![32]⟩ : Shape).Idx → EReal) (b : Fin 4) (n : Fin 1024) (h : Fin 32) : EReal :=
  (∑ d : Fin 32, x (ix3 b n d) * W (ix2 h d)) + bias (ix1 h)

/-- The result at batch `b`, target point `m`, value coordinate `v`. -/
def outAt (x1 x2 : (⟨3, ![4, 1024, 32]⟩ : Shape).Idx → EReal) (r : (⟨3, ![4, 1024, 64]⟩ : Shape).Idx → EReal)
    (W : (⟨2, ![32, 32]⟩ : Shape).Idx → EReal) (bias : (⟨1, ![32]⟩ : Shape).Idx → EReal)
    (b : Fin 4) (m : Fin 1024) (v : Fin 64) : EReal :=
  ∑ n : Fin 1024, wt (proj x1 W bias b n) (proj x2 W bias b m) * r (ix3 b n v)

/-- The whole result array. -/
def out (x1 x2 : (⟨3, ![4, 1024, 32]⟩ : Shape).Idx → EReal) (r : (⟨3, ![4, 1024, 64]⟩ : Shape).Idx → EReal)
    (W : (⟨2, ![32, 32]⟩ : Shape).Idx → EReal) (bias : (⟨1, ![32]⟩ : Shape).Idx → EReal) :
    (⟨3, ![4, 1024, 64]⟩ : Shape).Idx → EReal :=
  fun i => outAt x1 x2 r W bias (i 0) (i 1) (i 2)

/-! ## The distance added one feature at a time

The kernel adds the 32 absolute differences one after the other onto a zero accumulator, and its feature numbers are the
natural numbers of the printed slice offsets. `accTo … j` is that accumulator after `j` features; a feature number is
read modulo 32, so that every natural number names a feature. -/

/-- The feature a natural number names. -/
def feat (h : ℕ) : Fin 32 := ⟨h % 32, Nat.mod_lt _ (by decide)⟩

theorem feat_val (h : Fin 32) : feat h.val = h := Fin.ext (Nat.mod_eq_of_lt h.isLt)

/-- The accumulated distance after the first `j` features. -/
def accTo (k q : Fin 32 → EReal) (j : ℕ) : EReal := ∑ h ∈ Finset.range j, adiff (k (feat h)) (q (feat h))

theorem accTo_zero (k q : Fin 32 → EReal) : accTo k q 0 = 0 := Finset.sum_range_zero _

theorem accTo_succ (k q : Fin 32 → EReal) (j : ℕ) :
    accTo k q (j + 1) = accTo k q j + adiff (k (feat j)) (q (feat j)) := Finset.sum_range_succ _ _

/-- After all 32 features the accumulator is the L1 distance. -/
theorem accTo_all (k q : Fin 32 → EReal) : accTo k q 32 = dist k q := by
  unfold accTo dist
  rw [← Fin.sum_univ_eq_sum_range (fun h => adiff (k (feat h)) (q (feat h))) 32]
  exact Finset.sum_congr rfl fun h _ => by rw [feat_val]

end Cert.Laplace

end
-- ==== Proof.Accum.lean ====
/-
  The L1 distance, one feature at a time. With `K` the keys [1024, 32] and `Q` the queries [128, 32] of a grid step, the
  body keeps a [128, 1024] accumulator, zero at first, and for each feature h = 0, …, 31 adds |K (n, h) − Q (p, h)| at
  entry (p, n): it slices column h out of each matrix, lays the keys' column along the rows and the queries' column down
  the columns, subtracts, takes the absolute value and adds. The printed body is cut into consecutive stretches of sixty
  statements, so a feature's column may be prepared in one stretch and used in the next; each stretch is read here at an
  entry (p, n), given what the stretch before it left there: after the stretches the accumulator holds the sum over the
  first 1, 7, 12, 18, 23 and 29 features (`accTo`), and the last three features are added in the closing stretch.
-/
import proofs.«171696_j13572096656114_1_alg».proof.Proof.Gen.KernelIdeal.Skeleton
import proofs.«171696_j13572096656114_1_alg».proof.Proof.LibColumn
import proofs.«171696_j13572096656114_1_alg».proof.Proof.Spec

noncomputable section

namespace Cert.KernelIdeal.Laplace

open Cert.KernelIdeal Cert.KernelIdeal.Gen Idealize.ShloMosaic Idealize.ShloMosaic.ValueIdx Cert.Laplace

/-- Row `n` of the keys as a feature vector. -/
def krow (K : FVec Ideal S1024x32 .f32) (n : Fin 1024) : Fin 32 → EReal := fun h => K (ix2 n h)
/-- Row `p` of the queries as a feature vector. -/
def qrow (Q : FVec Ideal S128x32 .f32) (p : Fin 128) : Fin 32 → EReal := fun h => Q (ix2 p h)

/-- An absolute value at an entry, over the extended reals: the larger of the entry and its negation. -/
theorem absf_apply {s : Shape} {φ : FTy} (a : FVec Ideal s φ) (i : s.Idx) : absf a i = max (a i) (-(a i)) := rfl

/-- Column `h` of the keys, sliced out, at row `n`. -/
theorem kcol (h : ℕ) (K : FVec Ideal S1024x32 .f32) (hs : S1024x32.Slices ![0, h] S1024x1) (n : Fin 1024) (u : Fin 1) :
    extractStridedSlice S1024x1 ![0, h] K hs (ix2 n u) = krow K n (feat h) := slice_col_apply h K hs n u
/-- Column `h` of the queries, sliced out, at row `p`. -/
theorem qcol (h : ℕ) (Q : FVec Ideal S128x32 .f32) (hs : S128x32.Slices ![0, h] S128x1) (p : Fin 128) (u : Fin 1) :
    extractStridedSlice S128x1 ![0, h] Q hs (ix2 p u) = qrow Q p (feat h) := slice_col_apply h Q hs p u

/-! ## Columns prepared in one stretch for the next -/

theorem pay8_apply (v0 : Vec Ideal S1x1024x32 .f32) (v6 : Vec Ideal S32x32 .f32) (v7 : Vec Ideal S1x32 .f32) (p : Fin 128) (n : Fin 1024) :
    k0_pay8 (F := Ideal) v0 v6 v7 (ix2 p n) = krow (k0_pay5 v0 v6 v7) n (feat 1) := by
  unfold k0_pay8
  simp only [broadcastTo_1b_ab_apply, shapeCast_a_1a_apply, shapeCast_a1_a_apply, kcol]

theorem pay9_apply (v2 : Vec Ideal S1x128x32 .f32) (v6 : Vec Ideal S32x32 .f32) (v7 : Vec Ideal S1x32 .f32) (p : Fin 128) (n : Fin 1024) :
    k0_pay9 (F := Ideal) v2 v6 v7 (ix2 p n) = qrow (k0_pay6 v2 v6 v7) p (feat 1) := by
  unfold k0_pay9
  simp only [broadcastTo_a1_ab_apply, shapeCast_a_a1_apply, shapeCast_a1_a_apply, qcol]

theorem pay11_apply (K : FVec Ideal S1024x32 .f32) (n : Fin 1024) : k0_pay11 (F := Ideal) K (ix1 n) = krow K n (feat 7) := by
  unfold k0_pay11
  simp only [shapeCast_a1_a_apply, kcol]

theorem pay13_apply (Q : FVec Ideal S128x32 .f32) (p : Fin 128) (u : Fin 1) : k0_pay13 (F := Ideal) Q (ix2 p u) = qrow Q p (feat 12) := by
  unfold k0_pay13
  simp only [shapeCast_a_a1_apply, shapeCast_a1_a_apply, qcol]

theorem pay14_apply (K : FVec Ideal S1024x32 .f32) (p : Fin 128) (n : Fin 1024) : k0_pay14 (F := Ideal) K (ix2 p n) = krow K n (feat 12) := by
  unfold k0_pay14
  simp only [broadcastTo_1b_ab_apply, shapeCast_a_1a_apply, shapeCast_a1_a_apply, kcol]

theorem pay16_apply (K : FVec Ideal S1024x32 .f32) (n : Fin 1024) (u : Fin 1) : k0_pay16 (F := Ideal) K (ix2 n u) = krow K n (feat 18) := by
  unfold k0_pay16
  simp only [kcol]

theorem pay18_apply (K : FVec Ideal S1024x32 .f32) (u : Fin 1) (n : Fin 1024) : k0_pay18 (F := Ideal) K (ix2 u n) = krow K n (feat 23) := by
  unfold k0_pay18
  simp only [shapeCast_a_1a_apply, shapeCast_a1_a_apply, kcol]

theorem pay19_apply (Q : FVec Ideal S128x32 .f32) (p : Fin 128) (u : Fin 1) : k0_pay19 (F := Ideal) Q (ix2 p u) = qrow Q p (feat 23) := by
  unfold k0_pay19
  simp only [shapeCast_a_a1_apply, shapeCast_a1_a_apply, qcol]

/-! ## The accumulator after each stretch -/

/-- Feature 0 onto the zero accumulator. -/
theorem stage7 (v0 : Vec Ideal S1x1024x32 .f32) (v2 : Vec Ideal S1x128x32 .f32) (v6 : Vec Ideal S32x32 .f32) (v7 : Vec Ideal S1x32 .f32)
    (p : Fin 128) (n : Fin 1024) :
    k0_pay7 (F := Ideal) v0 v2 v6 v7 (ix2 p n) = accTo (krow (k0_pay5 v0 v6 v7) n) (qrow (k0_pay6 v2 v6 v7) p) 1 := by
  unfold k0_pay7
  simp only [addf_apply, subf_apply, absf_apply, broadcast_apply, broadcastTo_1b_ab_apply, broadcastTo_a1_ab_apply,
    shapeCast_a_1a_apply, shapeCast_a1_a_apply, shapeCast_a_a1_apply, kcol, qcol, accTo_succ, accTo_zero, adiff, Ideal.ofBits_def, Ideal.ofBits_zero_f32]

/-- Features 1 to 6. -/
theorem stage10 (K : FVec Ideal S1024x32 .f32) (Q : FVec Ideal S128x32 .f32) (v33 v40 v41 : FVec Ideal S128x1024 .f32)
    (p : Fin 128) (n : Fin 1024) (h33 : v33 (ix2 p n) = accTo (krow K n) (qrow Q p) 1)
    (h40 : v40 (ix2 p n) = krow K n (feat 1)) (h41 : v41 (ix2 p n) = qrow Q p (feat 1)) :
    k0_pay10 (F := Ideal) K Q v33 v40 v41 (ix2 p n) = accTo (krow K n) (qrow Q p) 7 := by
  unfold k0_pay10
  simp only [addf_apply, subf_apply, absf_apply, broadcast_apply, broadcastTo_1b_ab_apply, broadcastTo_a1_ab_apply,
    shapeCast_a_1a_apply, shapeCast_a1_a_apply, shapeCast_a_a1_apply, kcol, qcol, accTo_succ, accTo_zero, adiff, h33, h40, h41]

/-- Features 7 to 11. -/
theorem stage12 (K : FVec Ideal S1024x32 .f32) (Q : FVec Ideal S128x32 .f32) (v99 : FVec Ideal S128x1024 .f32) (v101 : FVec Ideal S1024 .f32)
    (p : Fin 128) (n : Fin 1024) (h99 : v99 (ix2 p n) = accTo (krow K n) (qrow Q p) 7)
    (h101 : v101 (ix1 n) = krow K n (feat 7)) :
    k0_pay12 (F := Ideal) K Q v99 v101 (ix2 p n) = accTo (krow K n) (qrow Q p) 12 := by
  unfold k0_pay12
  simp only [addf_apply, subf_apply, absf_apply, broadcast_apply, broadcastTo_1b_ab_apply, broadcastTo_a1_ab_apply,
    shapeCast_a_1a_apply, shapeCast_a1_a_apply, shapeCast_a_a1_apply, kcol, qcol, accTo_succ, accTo_zero, adiff, h99, h101]

/-- Features 12 to 17. -/
theorem stage15 (K : FVec Ideal S1024x32 .f32) (Q : FVec Ideal S128x32 .f32) (v154 : FVec Ideal S128x1024 .f32) (v160 : FVec Ideal S128x1 .f32)
    (v161 : FVec Ideal S128x1024 .f32) (p : Fin 128) (n : Fin 1024) (h154 : v154 (ix2 p n) = accTo (krow K n) (qrow Q p) 12)
    (h160 : v160 (ix2 p (0 : Fin 1)) = qrow Q p (feat 12)) (h161 : v161 (ix2 p n) = krow K n (feat 12)) :
    k0_pay15 (F := Ideal) K Q v154 v160 v161 (ix2 p n) = accTo (krow K n) (qrow Q p) 18 := by
  unfold k0_pay15
  simp only [addf_apply, subf_apply, absf_apply, broadcast_apply, broadcastTo_1b_ab_apply, broadcastTo_a1_ab_apply,
    shapeCast_a_1a_apply, shapeCast_a1_a_apply, shapeCast_a_a1_apply, kcol, qcol, accTo_succ, accTo_zero, adiff, h154, h160, h161]

/-- Features 18 to 22. -/
theorem stage17 (K : FVec Ideal S1024x32 .f32) (Q : FVec Ideal S128x32 .f32) (v220 : FVec Ideal S128x1024 .f32) (v221 : FVec Ideal S1024x1 .f32)
    (p : Fin 128) (n : Fin 1024) (h220 : v220 (ix2 p n) = accTo (krow K n) (qrow Q p) 18)
    (h221 : v221 (ix2 n (0 : Fin 1)) = krow K n (feat 18)) :
    k0_pay17 (F := Ideal) K Q v220 v221 (ix2 p n) = accTo (krow K n) (qrow Q p) 23 := by
  unfold k0_pay17
  simp only [addf_apply, subf_apply, absf_apply, broadcast_apply, broadcastTo_1b_ab_apply, broadcastTo_a1_ab_apply,
    shapeCast_a_1a_apply, shapeCast_a1_a_apply, shapeCast_a_a1_apply, kcol, qcol, accTo_succ, accTo_zero, adiff, h220, h221]

/-- Features 23 to 28. -/
theorem stage20 (K : FVec Ideal S1024x32 .f32) (Q : FVec Ideal S128x32 .f32) (v275 : FVec Ideal S128x1024 .f32) (v280 : FVec Ideal S1x1024 .f32)
    (v281 : FVec Ideal S128x1 .f32) (p : Fin 128) (n : Fin 1024) (h275 : v275 (ix2 p n) = accTo (krow K n) (qrow Q p) 23)
    (h280 : v280 (ix2 (0 : Fin 1) n) = krow K n (feat 23)) (h281 : v281 (ix2 p (0 : Fin 1)) = qrow Q p (feat 23)) :
    k0_pay20 (F := Ideal) K Q v275 v280 v281 (ix2 p n) = accTo (krow K n) (qrow Q p) 29 := by
  unfold k0_pay20
  simp only [addf_apply, subf_apply, absf_apply, broadcast_apply, broadcastTo_1b_ab_apply, broadcastTo_a1_ab_apply,
    shapeCast_a_1a_apply, shapeCast_a1_a_apply, shapeCast_a_a1_apply, kcol, qcol, accTo_succ, accTo_zero, adiff, h275, h280, h281]

end Cert.KernelIdeal.Laplace

end
-- ==== Proof.Dots.lean ====
/-
  The kernel's three matrix products, each read at an entry. All three multiply a [rows, shared] matrix by a
  [shared, columns] matrix into a zero accumulator: the keys' and the queries' projections (shared axis: the 32 input
  features) and the final weighted sum (shared axis: the 1024 context points). Over the extended reals such a product at
  entry (r, c) is the plain sum over the shared axis; what is proved here is which entries of the two factors the
  product's index maps pick.
-/
import proofs.«171696_j13572096656114_1_alg».proof.Proof.Gen.KernelIdeal
import Idealize.ShloMosaic.Lib.ValueIdx
import Idealize.ShloMosaic.PureOps.Ideal.Laws

noncomputable section

namespace Cert.KernelIdeal.Laplace

open Cert.KernelIdeal Cert.KernelIdeal.Gen Idealize.ShloMosaic Idealize.ShloMosaic.ValueIdx

/-! ### S1024x32 · S32x32 -/

theorem lhsK_0 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
theorem lhsK_1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
theorem rhsK_0 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
theorem rhsK_1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

/-- The product of a [1024, 32] and a [32, 32] matrix started from zero, at entry `(r, c)`: the sum over the shared
    axis of the row's entries times the column's. -/
theorem matmulK_apply {φ₁ φ₂ : FTy} (A : FVec Ideal S1024x32 φ₁) (B : FVec Ideal S32x32 φ₂) (r : Fin 1024) (c : Fin 32) :
    matmul dot_S1024x32_S32x32_S1024x32_1_0_0_1_n_n none A B (constant (F := Ideal) S1024x32 .f32 0x00000000#32) (ix2 r c)
      = ∑ d : Fin 32, A (ix2 r d) * B (ix2 d c) := by
  simp only [matmul]
  rw [Ideal.matmul_constant_zero_apply, ← Equiv.sum_comp (contrEquiv1 dot_S1024x32_S32x32_S1024x32_1_0_0_1_n_n 32 rfl rfl).symm]
  refine Finset.sum_congr rfl fun d _ => ?_
  have hk := contrEquiv1_symm_val dot_S1024x32_S32x32_S1024x32_1_0_0_1_n_n 32 rfl rfl d
  have el : dot_S1024x32_S32x32_S1024x32_1_0_0_1_n_n.lhsIdx (ix2 r c) ((contrEquiv1 dot_S1024x32_S32x32_S1024x32_1_0_0_1_n_n 32 rfl rfl).symm d) = ix2 r d := funext fun a => Fin.ext (by
    match a with
    | ⟨0, _⟩ => exact lhsK_0 _ _
    | ⟨1, _⟩ => exact (lhsK_1 _ _).trans hk)
  have er : dot_S1024x32_S32x32_S1024x32_1_0_0_1_n_n.rhsIdx (ix2 r c) ((contrEquiv1 dot_S1024x32_S32x32_S1024x32_1_0_0_1_n_n 32 rfl rfl).symm d) = ix2 d c := funext fun a => Fin.ext (by
    match a with
    | ⟨0, _⟩ => exact (rhsK_0 _ _).trans hk
    | ⟨1, _⟩ => exact rhsK_1 _ _)
  rw [el, er]

/-! ### S128x32 · S32x32 -/

theorem lhsQ_0 (i : S128x32.Idx) (q : dot_S128x32_S32x32_S128x32_1_0_0_1_n_n.contr.Idx) :
    (dot_S128x32_S32x32_S128x32_1_0_0_1_n_n.lhsIdx i q 0).val = (i 0).val := by
  unfold DotDims.lhsIdx
  rw [dif_neg (show ¬(0 : Fin S128x32.rank) ∈ dot_S128x32_S32x32_S128x32_1_0_0_1_n_n.lhsBatch by decide), dif_pos (show (0 : Fin S128x32.rank) ∈ dot_S128x32_S32x32_S128x32_1_0_0_1_n_n.lhsNonContracting by decide)]
  rfl
theorem lhsQ_1 (i : S128x32.Idx) (q : dot_S128x32_S32x32_S128x32_1_0_0_1_n_n.contr.Idx) :
    (dot_S128x32_S32x32_S128x32_1_0_0_1_n_n.lhsIdx i q 1).val = (q ⟨0, by decide⟩).val :=
  dot_S128x32_S32x32_S128x32_1_0_0_1_n_n.lhsIdx_val_of_single rfl i q
theorem rhsQ_0 (i : S128x32.Idx) (q : dot_S128x32_S32x32_S128x32_1_0_0_1_n_n.contr.Idx) :
    (dot_S128x32_S32x32_S128x32_1_0_0_1_n_n.rhsIdx i q 0).val = (q ⟨0, by decide⟩).val :=
  dot_S128x32_S32x32_S128x32_1_0_0_1_n_n.rhsIdx_val_of_single rfl i q
theorem rhsQ_1 (i : S128x32.Idx) (q : dot_S128x32_S32x32_S128x32_1_0_0_1_n_n.contr.Idx) :
    (dot_S128x32_S32x32_S128x32_1_0_0_1_n_n.rhsIdx i q 1).val = (i 1).val := by
  unfold DotDims.rhsIdx
  rw [dif_neg (show ¬(1 : Fin S32x32.rank) ∈ dot_S128x32_S32x32_S128x32_1_0_0_1_n_n.rhsBatch by decide), dif_pos (show (1 : Fin S32x32.rank) ∈ dot_S128x32_S32x32_S128x32_1_0_0_1_n_n.rhsNonContracting by decide)]
  rfl

/-- The product of a [128, 32] and a [32, 32] matrix started from zero, at entry `(r, c)`: the sum over the shared
    axis of the row's entries times the column's. -/
theorem matmulQ_apply {φ₁ φ₂ : FTy} (A : FVec Ideal S128x32 φ₁) (B : FVec Ideal S32x32 φ₂) (r : Fin 128) (c : Fin 32) :
    matmul dot_S128x32_S32x32_S128x32_1_0_0_1_n_n none A B (constant (F := Ideal) S128x32 .f32 0x00000000#32) (ix2 r c)
      = ∑ d : Fin 32, A (ix2 r d) * B (ix2 d c) := by
  simp only [matmul]
  rw [Ideal.matmul_constant_zero_apply, ← Equiv.sum_comp (contrEquiv1 dot_S128x32_S32x32_S128x32_1_0_0_1_n_n 32 rfl rfl).symm]
  refine Finset.sum_congr rfl fun d _ => ?_
  have hk := contrEquiv1_symm_val dot_S128x32_S32x32_S128x32_1_0_0_1_n_n 32 rfl rfl d
  have el : dot_S128x32_S32x32_S128x32_1_0_0_1_n_n.lhsIdx (ix2 r c) ((contrEquiv1 dot_S128x32_S32x32_S128x32_1_0_0_1_n_n 32 rfl rfl).symm d) = ix2 r d := funext fun a => Fin.ext (by
    match a with
    | ⟨0, _⟩ => exact lhsQ_0 _ _
    | ⟨1, _⟩ => exact (lhsQ_1 _ _).trans hk)
  have er : dot_S128x32_S32x32_S128x32_1_0_0_1_n_n.rhsIdx (ix2 r c) ((contrEquiv1 dot_S128x32_S32x32_S128x32_1_0_0_1_n_n 32 rfl rfl).symm d) = ix2 d c := funext fun a => Fin.ext (by
    match a with
    | ⟨0, _⟩ => exact (rhsQ_0 _ _).trans hk
    | ⟨1, _⟩ => exact rhsQ_1 _ _)
  rw [el, er]

/-! ### S128x1024 · S1024x64 -/

theorem lhsR_0 (i : S128x64.Idx) (q : dot_S128x1024_S1024x64_S128x64_1_0_0_1_n_n.contr.Idx) :
    (dot_S128x1024_S1024x64_S128x64_1_0_0_1_n_n.lhsIdx i q 0).val = (i 0).val := by
  unfold DotDims.lhsIdx
  rw [dif_neg (show ¬(0 : Fin S128x1024.rank) ∈ dot_S128x1024_S1024x64_S128x64_1_0_0_1_n_n.lhsBatch by decide), dif_pos (show (0 : Fin S128x1024.rank) ∈ dot_S128x1024_S1024x64_S128x64_1_0_0_1_n_n.lhsNonContracting by decide)]
  rfl
theorem lhsR_1 (i : S128x64.Idx) (q : dot_S128x1024_S1024x64_S128x64_1_0_0_1_n_n.contr.Idx) :
    (dot_S128x1024_S1024x64_S128x64_1_0_0_1_n_n.lhsIdx i q 1).val = (q ⟨0, by decide⟩).val :=
  dot_S128x1024_S1024x64_S128x64_1_0_0_1_n_n.lhsIdx_val_of_single rfl i q
theorem rhsR_0 (i : S128x64.Idx) (q : dot_S128x1024_S1024x64_S128x64_1_0_0_1_n_n.contr.Idx) :
    (dot_S128x1024_S1024x64_S128x64_1_0_0_1_n_n.rhsIdx i q 0).val = (q ⟨0, by decide⟩).val :=
  dot_S128x1024_S1024x64_S128x64_1_0_0_1_n_n.rhsIdx_val_of_single rfl i q
theorem rhsR_1 (i : S128x64.Idx) (q : dot_S128x1024_S1024x64_S128x64_1_0_0_1_n_n.contr.Idx) :
    (dot_S128x1024_S1024x64_S128x64_1_0_0_1_n_n.rhsIdx i q 1).val = (i 1).val := by
  unfold DotDims.rhsIdx
  rw [dif_neg (show ¬(1 : Fin S1024x64.rank) ∈ dot_S128x1024_S1024x64_S128x64_1_0_0_1_n_n.rhsBatch by decide), dif_pos (show (1 : Fin S1024x64.rank) ∈ dot_S128x1024_S1024x64_S128x64_1_0_0_1_n_n.rhsNonContracting by decide)]
  rfl

/-- The product of a [128, 1024] and a [1024, 64] matrix started from zero, at entry `(r, c)`: the sum over the shared
    axis of the row's entries times the column's. -/
theorem matmulR_apply {φ₁ φ₂ : FTy} (A : FVec Ideal S128x1024 φ₁) (B : FVec Ideal S1024x64 φ₂) (r : Fin 128) (c : Fin 64) :
    matmul dot_S128x1024_S1024x64_S128x64_1_0_0_1_n_n none A B (constant (F := Ideal) S128x64 .f32 0x00000000#32) (ix2 r c)
      = ∑ d : Fin 1024, A (ix2 r d) * B (ix2 d c) := by
  simp only [matmul]
  rw [Ideal.matmul_constant_zero_apply, ← Equiv.sum_comp (contrEquiv1 dot_S128x1024_S1024x64_S128x64_1_0_0_1_n_n 1024 rfl rfl).symm]
  refine Finset.sum_congr rfl fun d _ => ?_
  have hk := contrEquiv1_symm_val dot_S128x1024_S1024x64_S128x64_1_0_0_1_n_n 1024 rfl rfl d
  have el : dot_S128x1024_S1024x64_S128x64_1_0_0_1_n_n.lhsIdx (ix2 r c) ((contrEquiv1 dot_S128x1024_S1024x64_S128x64_1_0_0_1_n_n 1024 rfl rfl).symm d) = ix2 r d := funext fun a => Fin.ext (by
    match a with
    | ⟨0, _⟩ => exact lhsR_0 _ _
    | ⟨1, _⟩ => exact (lhsR_1 _ _).trans hk)
  have er : dot_S128x1024_S1024x64_S128x64_1_0_0_1_n_n.rhsIdx (ix2 r c) ((contrEquiv1 dot_S128x1024_S1024x64_S128x64_1_0_0_1_n_n 1024 rfl rfl).symm d) = ix2 d c := funext fun a => Fin.ext (by
    match a with
    | ⟨0, _⟩ => exact (rhsR_0 _ _).trans hk
    | ⟨1, _⟩ => exact rhsR_1 _ _)
  rw [el, er]

end Cert.KernelIdeal.Laplace

end
-- ==== Proof.Proj.lean ====
/-
  Keys and queries inside one grid step. The body loads the batch's whole context block [1, 1024, 32], one tile of 128
  target points [1, 128, 32], the map W [32, 32] and the bias as a row [1, 32]; it multiplies each block by the transpose of
  W and adds the bias row to every row. Read at row `n`, feature `h`, that is `Σ_d x (0, n, d) · W (h, d) + bias (0, h)`:
  the rounding of the factors to bf16 is the identity over the extended reals, the transpose swaps W's two coordinates, and
  the product into a zero accumulator is the plain sum.
-/
import proofs.«171696_j13572096656114_1_alg».proof.Proof.Gen.KernelIdeal.Skeleton
import proofs.«171696_j13572096656114_1_alg».proof.Proof.Dots
import Idealize.ShloMosaic.Lib.ValueLayout

noncomputable section

namespace Cert.KernelIdeal.Laplace

open Cert.KernelIdeal Cert.KernelIdeal.Gen Idealize.ShloMosaic Idealize.ShloMosaic.ValueIdx

/-- The keys of the loaded context block. -/
theorem key_apply (v0 : Vec Ideal S1x1024x32 .f32) (v6 : Vec Ideal S32x32 .f32) (v7 : Vec Ideal S1x32 .f32)
    (n : Fin 1024) (h : Fin 32) :
    k0_pay5 (F := Ideal) v0 v6 v7 (ix2 n h)
      = (∑ d : Fin 32, v0 (ix3 (0 : Fin 1) n d) * v6 (ix2 h d)) + v7 (ix2 (0 : Fin 1) h) := by
  unfold k0_pay5 k0_pay4 k0_pay3
  simp only [addf_apply, matmulK_apply, truncf_apply, shapeCast_1ab_ab_apply,
    broadcastTo_1b_ab_apply, shapeCast_a_1a_apply, shapeCast_1a_a_apply]
  refine congrArg (· + _) (Finset.sum_congr rfl fun d _ => congrArg (_ * ·) ?_)
  exact transpose_ix2_apply (truncf (F := Ideal) .bf16 v6 bitsLt_bf16_f32) transposes_S32x32_p1_0_S32x32 d h

/-- The queries of the loaded tile of target points. -/
theorem query_apply (v2 : Vec Ideal S1x128x32 .f32) (v6 : Vec Ideal S32x32 .f32) (v7 : Vec Ideal S1x32 .f32)
    (p : Fin 128) (h : Fin 32) :
    k0_pay6 (F := Ideal) v2 v6 v7 (ix2 p h)
      = (∑ d : Fin 32, v2 (ix3 (0 : Fin 1) p d) * v6 (ix2 h d)) + v7 (ix2 (0 : Fin 1) h) := by
  unfold k0_pay6 k0_pay4 k0_pay3
  simp only [addf_apply, matmulQ_apply, truncf_apply, shapeCast_1ab_ab_apply,
    broadcastTo_1b_ab_apply, shapeCast_a_1a_apply, shapeCast_1a_a_apply]
  refine congrArg (· + _) (Finset.sum_congr rfl fun d _ => congrArg (_ * ·) ?_)
  exact transpose_ix2_apply (truncf (F := Ideal) .bf16 v6 bitsLt_bf16_f32) transposes_S32x32_p1_0_S32x32 d h

/-- The loaded block of context values with its unit batch axis dropped. -/
theorem values_apply (v4 : Vec Ideal S1x1024x64 .f32) (n : Fin 1024) (v : Fin 64) :
    k0_pay2 (F := Ideal) v4 (ix2 n v) = v4 (ix3 (0 : Fin 1) n v) := by
  unfold k0_pay2
  simp only [shapeCast_1ab_ab_apply]

end Cert.KernelIdeal.Laplace

end
-- ==== Proof.Body.lean ====
/-
  One grid step's output tile. The closing stretch adds the last three features, turns the accumulated distance `a` at
  entry (p, n) into the weight `1 + tanh (0 − a)`, and multiplies the [128, 1024] weights by the [1024, 64] context values
  into a zero accumulator. With the stretches before it chained, the tile's entry (p, v) is the weighted sum over the
  1024 context points of the batch, each weight a function of the context point's key row and the target point's query
  row: `Σ_n wt (K n) (Q p) · R (n, v)`.
-/
import proofs.«171696_j13572096656114_1_alg».proof.Proof.Accum
import proofs.«171696_j13572096656114_1_alg».proof.Proof.Proj

noncomputable section

namespace Cert.KernelIdeal.Laplace

open Cert.KernelIdeal Cert.KernelIdeal.Gen Idealize.ShloMosaic Idealize.ShloMosaic.ValueIdx Cert.Laplace

/-- The absolute value of a difference at an entry. -/
theorem absdiff_apply {s : Shape} {φ : FTy} (a b : FVec Ideal s φ) (i : s.Idx) : absf (subf a b) i = adiff (a i) (b i) := rfl

/-- The hyperbolic tangent at an entry. -/
theorem tanh_apply {s : Shape} {φ : FTy} (a : FVec Ideal s φ) (i : s.Idx) :
    Idealize.ShloMosaic.tanh a i = Ideal.tanh (a i) := rfl

/-- The last three features complete the L1 distance. -/
theorem accTo_last3 (k q : Fin 32 → EReal) :
    accTo k q 29 + adiff (k (feat 29)) (q (feat 29)) + adiff (k (feat 30)) (q (feat 30)) + adiff (k (feat 31)) (q (feat 31))
      = dist k q := by
  rw [← accTo_all]
  simp only [accTo_succ]

/-- The closing stretch: features 29 to 31, the weights, and the weighted sum of the context values. -/
theorem stage1 (R : FVec Ideal S1024x64 .f32) (K : FVec Ideal S1024x32 .f32) (Q : FVec Ideal S128x32 .f32)
    (v341 : FVec Ideal S128x1024 .f32) (p : Fin 128) (v : Fin 64)
    (h341 : ∀ n : Fin 1024, v341 (ix2 p n) = accTo (krow K n) (qrow Q p) 29) :
    k0_pay1 (F := Ideal) R K Q v341 (ix3 (0 : Fin 1) p v) = ∑ n : Fin 1024, wt (krow K n) (qrow Q p) * R (ix2 n v) := by
  unfold k0_pay1
  simp only [shapeCast_ab_1ab_apply, matmulR_apply, truncf_apply, addf_apply, subf_apply, tanh_apply, absdiff_apply,
    broadcast_apply, broadcastTo_1b_ab_apply, broadcastTo_a1_ab_apply, shapeCast_a_1a_apply, shapeCast_a1_a_apply,
    shapeCast_a_a1_apply, kcol, qcol, h341, accTo_last3, Ideal.ofBits_def, Ideal.ofBits_zero_f32, ofBits_one, zero_sub]
  rfl

/-- The whole body, from the loaded blocks: context points `v0`, a tile of target points `v2`, context values `v4`, the
    linear map `v6` and the bias row `v7`. -/
theorem tile_apply (v0 : Vec Ideal S1x1024x32 .f32) (v2 : Vec Ideal S1x128x32 .f32) (v4 : Vec Ideal S1x1024x64 .f32)
    (v6 : Vec Ideal S32x32 .f32) (v7 : Vec Ideal S1x32 .f32) (p : Fin 128) (v : Fin 64) :
    k0_pay1 (F := Ideal) (k0_pay2 v4) (k0_pay5 v0 v6 v7) (k0_pay6 v2 v6 v7)
        (k0_pay20 (k0_pay5 v0 v6 v7) (k0_pay6 v2 v6 v7)
          (k0_pay17 (k0_pay5 v0 v6 v7) (k0_pay6 v2 v6 v7)
            (k0_pay15 (k0_pay5 v0 v6 v7) (k0_pay6 v2 v6 v7)
              (k0_pay12 (k0_pay5 v0 v6 v7) (k0_pay6 v2 v6 v7)
                (k0_pay10 (k0_pay5 v0 v6 v7) (k0_pay6 v2 v6 v7) (k0_pay7 v0 v2 v6 v7) (k0_pay8 v0 v6 v7) (k0_pay9 v2 v6 v7))
                (k0_pay11 (k0_pay5 v0 v6 v7)))
              (k0_pay13 (k0_pay6 v2 v6 v7)) (k0_pay14 (k0_pay5 v0 v6 v7)))
            (k0_pay16 (k0_pay5 v0 v6 v7)))
          (k0_pay18 (k0_pay5 v0 v6 v7)) (k0_pay19 (k0_pay6 v2 v6 v7)))
        (ix3 (0 : Fin 1) p v)
      = ∑ n : Fin 1024,
          wt (fun h => (∑ d : Fin 32, v0 (ix3 (0 : Fin 1) n d) * v6 (ix2 h d)) + v7 (ix2 (0 : Fin 1) h))
             (fun h => (∑ d : Fin 32, v2 (ix3 (0 : Fin 1) p d) * v6 (ix2 h d)) + v7 (ix2 (0 : Fin 1) h))
            * v4 (ix3 (0 : Fin 1) n v) := by
  refine (stage1 _ _ _ _ p v fun n =>
    stage20 _ _ _ _ _ p n
      (stage17 _ _ _ _ p n
        (stage15 _ _ _ _ _ p n
          (stage12 _ _ _ _ p n
            (stage10 _ _ _ _ _ p n (stage7 v0 v2 v6 v7 p n) (pay8_apply v0 v6 v7 p n) (pay9_apply v2 v6 v7 p n))
            (pay11_apply _ n))
          (pay13_apply _ p 0) (pay14_apply _ p n))
        (pay16_apply _ n 0))
      (pay18_apply _ 0 n) (pay19_apply _ p 0)).trans ?_
  refine Finset.sum_congr rfl fun n _ => ?_
  rw [values_apply]
  have hk : krow (k0_pay5 (F := Ideal) v0 v6 v7) n
      = fun h => (∑ d : Fin 32, v0 (ix3 (0 : Fin 1) n d) * v6 (ix2 h d)) + v7 (ix2 (0 : Fin 1) h) :=
    funext fun h => key_apply v0 v6 v7 n h
  have hq : qrow (k0_pay6 (F := Ideal) v2 v6 v7) p
      = fun h => (∑ d : Fin 32, v2 (ix3 (0 : Fin 1) p d) * v6 (ix2 h d)) + v7 (ix2 (0 : Fin 1) h) :=
    funext fun h => query_apply v2 v6 v7 p h
  rw [hk, hq]

end Cert.KernelIdeal.Laplace

end
-- ==== Proof.KernelValue.lean ====
/-
  The kernel's result array. The grid has 4 · 8 points; point (b, j) stages batch `b`'s whole context (points and values),
  the `j`-th tile of 128 target points of batch `b`, the map W and the bias row, and writes back tile `j` of batch `b` of
  the result. By the body's reading (one tile entry as a weighted sum over the batch's context points) each point writes
  back its block of the specification `out`, and the 32 blocks tile the [4, 1024, 64] array: row `r` of batch `b` lies in
  the block of point (b, r / 128). The bias row the region finds is the host's reshape of the bias vector to [1, 32].
-/
import proofs.«171696_j13572096656114_1_alg».proof.Proof.Gen.KernelIdeal.Value
import proofs.«171696_j13572096656114_1_alg».proof.Proof.Body
import Idealize.ShloMosaic.Lib.Pipeline.Value
import Idealize.ShloMosaic.Lib.StableHlo.Run

noncomputable section

namespace Cert.KernelIdeal.Laplace

open Cert.KernelIdeal Cert.KernelIdeal.Gen Cert.KernelIdeal.Value Idealize.ShloMosaic Idealize.ShloMosaic.TcCoe Idealize.SL.Sem
open Idealize.ShloMosaic.ValueIdx Cert.Laplace
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array the kernel is to leave: the specification of the argument arrays as launched. -/
def outArr (c : Dev nD) : S4x1024x64.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

/-! ## Where each window's block lies -/

/-- The printed index maps over the grid: the context windows sit at the output's batch, the target window at the output's
    batch and tile, W and the bias at the origin; the output's block indices stay in range. -/
theorem idx_facts : ∀ t : Fin cfg0.N,
    win0_5.index t (0 : Fin 3) < 4 ∧ win0_5.index t (1 : Fin 3) < 8 ∧ win0_5.index t (2 : Fin 3) = 0
    ∧ win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, tile) pair is some grid point's output block. -/
theorem idx_onto : ∀ (q0 : Fin 4) (q1 : Fin 8), ∃ t : Fin cfg0.N, win0_5.index t = ![q0.val, q1.val, 0] :=
  (by decide +kernel : ∀ (q0 : Fin 4) (q1 : Fin 8), ∃ t : Fin grid0.N, win0_5.index t = ![q0.val, q1.val, 0])

/-- The context points' block at a point of batch `b` is batch `b` of the array. -/
theorem iblk0_apply (c : Dev nD) (t : Fin cfg0.N) (b : Fin 4) (hb : b.val = win0_5.index t (0 : Fin 3)) (n : Fin 1024) (d : Fin 32) :
    (iblk m c 0 t : Vec Ideal S1x1024x32 .f32) (ix3 (0 : Fin 1) n d) = m ((c : Thread nD τ).loc main_arg0) (ix3 b n d) := by
  obtain ⟨_, _, _, e0, e1, e2, _⟩ := idx_facts t
  rw [← V_main_arg0 m c]
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * n.val = n.val; omega
  | ⟨2, _⟩ => show win0_0.index t (2 : Fin 3) * 32 + 1 * d.val = d.val; omega

/-- The target points' block at the point of batch `b` and tile `j` is rows `128 j … 128 j + 127` of batch `b`. -/
theorem iblk1_apply (c : Dev nD) (t : Fin cfg0.N) (b : Fin 4) (hb : b.val = win0_5.index t (0 : Fin 3)) (r : Fin 1024) (p : Fin 128)
    (hr : r.val = win0_5.index t (1 : Fin 3) * 128 + p.val) (d : Fin 32) :
    (iblk m c 1 t : Vec Ideal S1x128x32 .f32) (ix3 (0 : Fin 1) p d) = m ((c : Thread nD τ).loc main_arg1) (ix3 b r d) := by
  obtain ⟨_, _, _, _, _, _, e0, e1, e2, _⟩ := idx_facts t
  rw [← V_main_arg1 m c]
  unfold iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 128 + 1 * p.val = r.val; omega
  | ⟨2, _⟩ => show win0_1.index t (2 : Fin 3) * 32 + 1 * d.val = d.val; omega

/-- The context values' block at a point of batch `b` is batch `b` of the array. -/
theorem iblk2_apply (c : Dev nD) (t : Fin cfg0.N) (b : Fin 4) (hb : b.val = win0_5.index t (0 : Fin 3)) (n : Fin 1024) (v : Fin 64) :
    (iblk m c 2 t : Vec Ideal S1x1024x64 .f32) (ix3 (0 : Fin 1) n v) = m ((c : Thread nD τ).loc main_arg2) (ix3 b n v) := by
  obtain ⟨_, _, _, _, _, _, _, _, _, e0, e1, e2, _⟩ := idx_facts t
  rw [← V_main_arg2 m c]
  unfold iblk
  rw [View.read_apply]
  show V m c main_arg2 _ = V m c main_arg2 _
  congr 1
  funext a
  apply Fin.ext
  match a with
  | ⟨0, _⟩ => show win0_2.index t (0 : Fin 3) * 1 + 1 * 0 = b.val; omega
  | ⟨1, _⟩ => show win0_2.index t (1 : Fin 3) * 1024 + 1 * n.val = n.val; omega
  | ⟨2, _⟩ => show win0_2.index t (2 : Fin 3) * 64 + 1 * v.val = v.val; omega

/-- The map's block is the whole map at every point. -/
theorem iblk3_apply (c : Dev nD) (t : Fin cfg0.N) (h d : Fin 32) :
    (iblk m c 3 t : Vec Ideal S32x32 .f32) (ix2 h d) = m ((c : Thread nD τ).loc main_arg3) (ix2 h d) := by
  obtain ⟨_, _, _, _, _, _, _, _, _, _, _, _, e0, e1, _⟩ := idx_facts t
  rw [← V_main_arg3 m c]
  unfold iblk
  rw [View.read_apply]
  show V m c main_arg3 _ = V m c main_arg3 _
  congr 1
  funext a
  apply Fin.ext
  match a with
  | ⟨0, _⟩ => show win0_3.index t (0 : Fin 2) * 32 + 1 * h.val = h.val; omega
  | ⟨1, _⟩ => show win0_3.index t (1 : Fin 2) * 32 + 1 * d.val = d.val; omega

/-- The bias row the region finds: the bias vector reshaped to [1, 32] by the host before the region. -/
theorem V_bias (c : Dev nD) :
    (V m c main_v0 : S1x32.Idx → EReal) = shapeCast S1x32 (m ((c : Thread nD τ).loc main_arg4)) shapeCasts_S32_S1x32 := by
  dsimp only [V, hostOps0]
  after_results
  rfl

/-- The bias row's block is the whole row at every point: entry `h` of the bias vector. -/
theorem iblk4_apply (c : Dev nD) (t : Fin cfg0.N) (h : Fin 32) :
    (iblk m c 4 t : Vec Ideal S1x32 .f32) (ix2 (0 : Fin 1) h) = m ((c : Thread nD τ).loc main_arg4) (ix1 h) := by
  obtain ⟨_, _, _, _, _, _, _, _, _, _, _, _, _, _, e0, e1⟩ := idx_facts t
  have hb : (V m c main_v0 : S1x32.Idx → EReal) (ix2 (0 : Fin 1) h) = m ((c : Thread nD τ).loc main_arg4) (ix1 h) := by
    rw [V_bias]; exact shapeCast_a_1a_apply _ _ 0 h
  rw [← hb]
  unfold iblk
  rw [View.read_apply]
  show V m c main_v0 _ = V m c main_v0 _
  congr 1
  funext a
  apply Fin.ext
  match a with
  | ⟨0, _⟩ => show win0_4.index t (0 : Fin 2) * 1 + 1 * 0 = 0; omega
  | ⟨1, _⟩ => show win0_4.index t (1 : Fin 2) * 32 + 1 * h.val = h.val; omega

/-! ## What a point writes back -/

/-- One entry of a point's output tile, from blocks that are the argument arrays' batch `b` and target tile: the
    specification at batch `b`, row `r` of the array. -/
theorem tile_out (X1 X2 : (⟨3, ![4, 1024, 32]⟩ : Shape).Idx → EReal) (R : (⟨3, ![4, 1024, 64]⟩ : Shape).Idx → EReal)
    (W : (⟨2, ![32, 32]⟩ : Shape).Idx → EReal) (B : (⟨1, ![32]⟩ : Shape).Idx → EReal)
    (v0 : Vec Ideal S1x1024x32 .f32) (v2 : Vec Ideal S1x128x32 .f32) (v4 : Vec Ideal S1x1024x64 .f32)
    (v6 : Vec Ideal S32x32 .f32) (v7 : Vec Ideal S1x32 .f32) (b : Fin 4) (r : Fin 1024) (p : Fin 128)
    (h0 : ∀ n d, v0 (ix3 (0 : Fin 1) n d) = X1 (ix3 b n d)) (h2 : ∀ d, v2 (ix3 (0 : Fin 1) p d) = X2 (ix3 b r d))
    (h4 : ∀ n v, v4 (ix3 (0 : Fin 1) n v) = R (ix3 b n v)) (h6 : ∀ h d, v6 (ix2 h d) = W (ix2 h d))
    (h7 : ∀ h, v7 (ix2 (0 : Fin 1) h) = B (ix1 h)) (v : Fin 64) :
    k0_pay1 (F := Ideal) (k0_pay2 v4) (k0_pay5 v0 v6 v7) (k0_pay6 v2 v6 v7)
        (k0_pay20 (k0_pay5 v0 v6 v7) (k0_pay6 v2 v6 v7)
          (k0_pay17 (k0_pay5 v0 v6 v7) (k0_pay6 v2 v6 v7)
            (k0_pay15 (k0_pay5 v0 v6 v7) (k0_pay6 v2 v6 v7)
              (k0_pay12 (k0_pay5 v0 v6 v7) (k0_pay6 v2 v6 v7)
                (k0_pay10 (k0_pay5 v0 v6 v7) (k0_pay6 v2 v6 v7) (k0_pay7 v0 v2 v6 v7) (k0_pay8 v0 v6 v7) (k0_pay9 v2 v6 v7))
                (k0_pay11 (k0_pay5 v0 v6 v7)))
              (k0_pay13 (k0_pay6 v2 v6 v7)) (k0_pay14 (k0_pay5 v0 v6 v7)))
            (k0_pay16 (k0_pay5 v0 v6 v7)))
          (k0_pay18 (k0_pay5 v0 v6 v7)) (k0_pay19 (k0_pay6 v2 v6 v7)))
        (ix3 (0 : Fin 1) p v)
      = outAt X1 X2 R W B b r v := by
  rw [tile_apply]
  unfold outAt proj
  simp only [h0, h2, h4, h6, h7]

/-- What a point writes back is its block of the specification. -/
theorem flushed_eq (c : Dev nD) (t : Fin cfg0.N) :
    (dats m 0 c).flushed 5 t = ((cfg0.win 5).blk t).view.read (Elt Ideal) (outArr m c) := by
  rw [flushed5]
  unfold out0_5
  rw [View.canon_unit_zero hz3]
  simp only [View.ld_unit_zero (S := S1x1024x32) hz3, View.ld_unit_zero (S := S1x128x32) hz3,
    View.ld_unit_zero (S := S1x1024x64) hz3, View.ld_unit_zero (S := S32x32) hz2, View.ld_unit_zero (S := S1x32) hz2]
  obtain ⟨l0, l1, l2, _⟩ := idx_facts t
  funext y
  obtain ⟨u, p, v, rfl⟩ : ∃ (u : Fin 1) (p : Fin 128) (v : Fin 64), (y : S1x128x64.Idx) = ix3 u p v :=
    ⟨y 0, y 1, y 2, eq_ix3 y⟩
  obtain rfl : u = 0 := Subsingleton.elim _ _
  have hr : win0_5.index t (1 : Fin 3) * 128 + p.val < 1024 := by have := p.isLt; omega
  have hemb : ((cfg0.win 5).blk t).view.emb (ix3 (0 : Fin 1) p v)
      = (ix3 (⟨win0_5.index t (0 : Fin 3), l0⟩ : Fin 4) (⟨win0_5.index t (1 : Fin 3) * 128 + p.val, hr⟩ : Fin 1024) v : S4x1024x64.Idx) := by
    funext a
    apply Fin.ext
    match a with
    | ⟨0, _⟩ => show win0_5.index t (0 : Fin 3) * 1 + 1 * 0 = win0_5.index t (0 : Fin 3); omega
    | ⟨1, _⟩ => show win0_5.index t (1 : Fin 3) * 128 + 1 * p.val = win0_5.index t (1 : Fin 3) * 128 + p.val; omega
    | ⟨2, _⟩ => show win0_5.index t (2 : Fin 3) * 64 + 1 * v.val = v.val; omega
  rw [View.read_apply, hemb]
  exact tile_out _ _ _ _ _ _ _ _ _ _ ⟨win0_5.index t (0 : Fin 3), l0⟩ ⟨win0_5.index t (1 : Fin 3) * 128 + p.val, hr⟩ p
    (fun n d => iblk0_apply m c t _ rfl n d) (fun d => iblk1_apply m c t _ rfl _ p rfl d)
    (fun n v => iblk2_apply m c t _ rfl n v) (fun h d => iblk3_apply m c t h d) (fun h => iblk4_apply m c t h) v

/-! ## The blocks tile the array -/

/-- An index of the array is in a point's block iff each coordinate is in the block's range on its axis. -/
theorem mem_blk5 (t : Fin cfg0.N) (i : S4x1024x64.Idx) :
    i ∈ ((cfg0.win 5).blk t).view.set ↔ ∀ a : Fin 3, win0_5.index t a * S1x128x64.size a ≤ (i a).val ∧ (i a).val < win0_5.index t a * S1x128x64.size a + S1x128x64.size a := by
  show i ∈ ((View.whole main_v1).slice (win0_5.rect t)).set ↔ _
  rw [View.set_slice_whole, Rect.mem_set_unit]
  exact Iff.rfl

/-- Row `r` of batch `b` lies in the block of the point of batch `b` and tile `r / 128`. -/
theorem cover5 (i : S4x1024x64.Idx) : ∃ t : Fin cfg0.N, (cfg0.win 5).flush t = true ∧ i ∈ ((cfg0.win 5).blk t).view.set := by
  have hi0 : (i 0).val < 4 := (i 0).isLt
  have hi1 : (i 1).val < 1024 := (i 1).isLt
  have hi2 : (i 2).val < 64 := (i 2).isLt
  obtain ⟨t, ht⟩ := idx_onto ⟨(i 0).val, hi0⟩ ⟨(i 1).val / 128, by omega⟩
  have q0 : win0_5.index t (0 : Fin 3) = (i 0).val := congrFun ht 0
  have q1 : win0_5.index t (1 : Fin 3) = (i 1).val / 128 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 64 ≤ (i 2).val ∧ (i 2).val < win0_5.index t (2 : Fin 3) * 64 + 64; omega

/-- So the result array ends holding the specification. -/
theorem final5 (c : Dev nD) : (dats m 0 c).arrAt 5 cfg0.N = outArr m c :=
  (dats m 0 c).arrAt_eq_of_cover 5 (outArr m c) (fun t _ => flushed_eq m c t) cover5

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v1) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.KernelIdeal.Laplace

end
-- ==== Proof.RefValue.lean ====
/-
  The reference computes `out`. Its program materialises the keys and queries for all 4 · 1024 points, broadcasts them
  against each other into a [4, 1024, 1024, 32] array of differences, divides by the constant one, takes absolute values,
  sums over the 32 features from zero, negates, applies the hyperbolic tangent, adds one, and contracts the resulting
  [4, 1024, 1024] weights with the context values over the context axis. Read at an entry, stage by stage, that is the
  specification: the broadcasts only select coordinates, dividing by one changes nothing, and `0 + s = s`.
-/
import proofs.«171696_j13572096656114_1_alg».proof.Proof.Gen.ReferenceIdeal.Read
import proofs.«171696_j13572096656114_1_alg».proof.Proof.Spec

noncomputable section

namespace Cert.ReferenceIdeal.Laplace

open Cert.ReferenceIdeal Cert.ReferenceIdeal.Gen Cert.ReferenceIdeal.Read Idealize.ShloMosaic Idealize.ShloMosaic.ValueIdx Cert.Laplace

variable (x0 x1 : (⟨S4x1024x32, .f32⟩ : BufTy).Contents (Elt Ideal)) (x2 : (⟨S4x1024x64, .f32⟩ : BufTy).Contents (Elt Ideal))
  (x3 : (⟨S32x32, .f32⟩ : BufTy).Contents (Elt Ideal)) (x4 : (⟨S32, .f32⟩ : BufTy).Contents (Elt Ideal))

/-- The keys: the affine image of the context points. -/
theorem key_ref (b : Fin 4) (n : Fin 1024) (h : Fin 32) :
    val_main_v3 (F := Ideal) x0 x3 x4 (ix3 b n h) = proj x0 x3 x4 b n h := by
  rw [val_main_v3_apply, val_main_v0_apply, val_main_v2_apply, val_main_v1_apply]
  have el : ∀ d : Fin 32, lidx_main_v0 (ix3 b n h) d = ix3 b n d := fun d => funext fun a => Fin.ext (by
    match a with | ⟨0, _⟩ => rfl | ⟨1, _⟩ => rfl | ⟨2, _⟩ => rfl)
  have er : ∀ d : Fin 32, ridx_main_v0 (ix3 b n h) d = ix2 h d := fun d => funext fun a => Fin.ext (by
    match a with | ⟨0, _⟩ => rfl | ⟨1, _⟩ => rfl)
  have eb : idx_main_v1 (idx_main_v2 (ix3 b n h)) = ix1 h := funext fun a => Fin.ext (by
    match a with | ⟨0, _⟩ => rfl)
  simp only [el, er, eb, Ideal.addf_def]
  rfl

/-- The queries: the same affine image of the target points. -/
theorem query_ref (b : Fin 4) (m : Fin 1024) (h : Fin 32) :
    val_main_v7 (F := Ideal) x1 x3 x4 (ix3 b m h) = proj x1 x3 x4 b m h := by
  rw [val_main_v7_apply, val_main_v4_apply, val_main_v6_apply, val_main_v5_apply]
  have el : ∀ d : Fin 32, lidx_main_v4 (ix3 b m h) d = ix3 b m d := fun d => funext fun a => Fin.ext (by
    match a with | ⟨0, _⟩ => rfl | ⟨1, _⟩ => rfl | ⟨2, _⟩ => rfl)
  have er : ∀ d : Fin 32, ridx_main_v4 (ix3 b m h) d = ix2 h d := fun d => funext fun a => Fin.ext (by
    match a with | ⟨0, _⟩ => rfl | ⟨1, _⟩ => rfl)
  have eb : idx_main_v5 (idx_main_v6 (ix3 b m h)) = ix1 h := funext fun a => Fin.ext (by
    match a with | ⟨0, _⟩ => rfl)
  simp only [el, er, eb, Ideal.addf_def]
  rfl

/-- The absolute difference of feature `h` between context point `n` and target point `m`. -/
theorem absdiff_ref (b : Fin 4) (m n : Fin 1024) (h : Fin 32) :
    val_main_v15 (F := Ideal) x0 x1 x3 x4 (ix4 b m n h) = adiff (proj x0 x3 x4 b n h) (proj x1 x3 x4 b m h) := by
  rw [val_main_v15_apply, val_main_v14_apply, val_main_v12_apply, val_main_v13_apply, val_main_cst_apply,
    val_main_v10_apply, val_main_v11_apply, val_main_v8_apply, val_main_v9_apply]
  have e8 : idx_main_v8 (idx_main_v10 (ix4 b m n h)) = ix3 b n h := funext fun a => Fin.ext (by
    match a with | ⟨0, _⟩ => rfl | ⟨1, _⟩ => rfl | ⟨2, _⟩ => rfl)
  have e9 : idx_main_v9 (idx_main_v11 (ix4 b m n h)) = ix3 b m h := funext fun a => Fin.ext (by
    match a with | ⟨0, _⟩ => rfl | ⟨1, _⟩ => rfl | ⟨2, _⟩ => rfl)
  rw [e8, e9, key_ref, query_ref]
  simp only [Ideal.hostAbsf_def, Ideal.absf_def, Ideal.hostDivf_def, Ideal.subf_def, Ideal.ofBits_def, ofBits_one, div_one]
  rfl

/-- The weight of context point `n` for target point `m`. -/
theorem weight_ref (b : Fin 4) (m n : Fin 1024) :
    val_main_v20 (F := Ideal) x0 x1 x3 x4 (ix3 b m n) = wt (proj x0 x3 x4 b n) (proj x1 x3 x4 b m) := by
  rw [val_main_v20_apply, val_main_v19_apply, val_main_cst_1_apply, val_main_v18_apply, val_main_v17_apply,
    val_main_v16_apply, val_main_cst_0_apply]
  have e : ∀ h : Fin 32, idx_main_v16 (ix3 b m n) h = ix4 b m n h := fun h => funext fun a => Fin.ext (by
    match a with | ⟨0, _⟩ => rfl | ⟨1, _⟩ => rfl | ⟨2, _⟩ => rfl | ⟨3, _⟩ => rfl)
  simp only [e, absdiff_ref, Ideal.addf_def, Ideal.hostUnary_tanh_def, Ideal.hostNegf_def, Ideal.negf_def, Ideal.ofBits_def,
    ofBits_one, Ideal.ofBits_zero_f32, zero_add]
  rfl

/-- The reference's result at an entry. -/
theorem ref_apply (b : Fin 4) (m : Fin 1024) (v : Fin 64) :
    val_main_v21 (F := Ideal) x0 x1 x2 x3 x4 (ix3 b m v) = outAt x0 x1 x2 x3 x4 b m v := by
  rw [val_main_v21_apply]
  unfold outAt
  refine Finset.sum_congr rfl fun n _ => ?_
  have e1 : lidx_main_v21 (ix3 b m v) n = ix3 b m n := funext fun a => Fin.ext (by
    match a with | ⟨0, _⟩ => rfl | ⟨1, _⟩ => rfl | ⟨2, _⟩ => rfl)
  have e2 : ridx_main_v21 (ix3 b m v) n = ix3 b n v := funext fun a => Fin.ext (by
    match a with | ⟨0, _⟩ => rfl | ⟨1, _⟩ => rfl | ⟨2, _⟩ => rfl)
  rw [e1, e2, weight_ref]

/-- The reference's result array is the specification. -/
theorem ref_eq : val_main_v21 (F := Ideal) x0 x1 x2 x3 x4 = out x0 x1 x2 x3 x4 := by
  funext i
  obtain ⟨b, m, v, rfl⟩ : ∃ (b : Fin 4) (m : Fin 1024) (v : Fin 64), i = ix3 b m v := ⟨i 0, i 1, i 2, eq_ix3 i⟩
  exact ref_apply x0 x1 x2 x3 x4 b m v

end Cert.ReferenceIdeal.Laplace

end
-- ==== Proof.lean ====
/-
  A laplace-kernel attention layer: keys and queries are one affine map of the context and target points, the weight of a
  context point for a target point is `1 + tanh (−L1 distance of key and query)`, and the result is the weighted sum of
  the context values (Proof/Spec.lean states it). The Pallas kernel computes one [128, 64] output tile per grid point
  from the batch's whole context, adding the 32 feature distances one after the other and multiplying on the matrix unit;
  the reference broadcasts all keys against all queries and reduces. Over the extended reals both are the specification:
  the kernel by reading its body at an entry (Proof/Proj.lean, Accum.lean, Body.lean) and its blocks in the array
  (Proof/KernelValue.lean), the reference by reading its stages at an entry (Proof/RefValue.lean). The three frames are
  the generated ones; the idealization rewrote nothing, so `preserves` is `True`. Finiteness of the inputs is never
  used: every step is an identity of the extended reals.
-/
import proofs.«171696_j13572096656114_1_alg».proof.Defs
import proofs.«171696_j13572096656114_1_alg».proof.Proof.Gen.Kernel
import proofs.«171696_j13572096656114_1_alg».proof.Proof.Gen.Kernel.Skeleton
import proofs.«171696_j13572096656114_1_alg».proof.Proof.Gen.Kernel.Launch
import proofs.«171696_j13572096656114_1_alg».proof.Proof.Gen.Kernel.Points
import proofs.«171696_j13572096656114_1_alg».proof.Proof.Gen.Kernel.Frame
import proofs.«171696_j13572096656114_1_alg».proof.Proof.Gen.KernelIdeal
import proofs.«171696_j13572096656114_1_alg».proof.Proof.Gen.KernelIdeal.Skeleton
import proofs.«171696_j13572096656114_1_alg».proof.Proof.Gen.KernelIdeal.Launch
import proofs.«171696_j13572096656114_1_alg».proof.Proof.Gen.KernelIdeal.Points
import proofs.«171696_j13572096656114_1_alg».proof.Proof.Gen.KernelIdeal.Frame
import proofs.«171696_j13572096656114_1_alg».proof.Proof.Gen.ReferenceIdeal
import proofs.«171696_j13572096656114_1_alg».proof.Proof.Gen.KernelIdeal.Value
import proofs.«171696_j13572096656114_1_alg».proof.Proof.Gen.ReferenceIdeal.Run
import proofs.«171696_j13572096656114_1_alg».proof.Proof.Gen.ReferenceIdeal.Read
import proofs.«171696_j13572096656114_1_alg».proof.Proof.Gen.Pre_finite_inputs
import proofs.«171696_j13572096656114_1_alg».proof.Proof.KernelValue
import proofs.«171696_j13572096656114_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of the arguments in their result array, and the arguments agree. -/
theorem algebraic : Cert.algebraic_KernelIdeal_ReferenceIdeal := by
  intro m ρ m' ρ' _ hagree
  refine ⟨fun c => Cert.KernelIdeal.Laplace.outArr m c, Cert.KernelIdeal.Laplace.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Laplace.ref_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
